-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S75x441x64 : Shape := ⟨3, ![75, 441, 64]⟩
abbrev S1x5x5x441x64 : Shape := ⟨5, ![1, 5, 5, 441, 64]⟩
abbrev S_ : Shape := ⟨0, ![]⟩
abbrev S75x441 : Shape := ⟨2, ![75, 441]⟩
abbrev S1x5x5x441 : Shape := ⟨4, ![1, 5, 5, 441]⟩

class Facts : Prop where
  bcast_S_S75x441x64 : S_.BroadcastsInDim S75x441x64 (![] : Fin 0 → Fin S75x441x64.rank)
  reducesTo_S75x441x64_S_d0_1_2 : S75x441x64.ReducesTo [0, 1, 2] S_
  h_S_ : 0 < S_.numel
  bcast_S_S1x5x5x441x64 : S_.BroadcastsInDim S1x5x5x441x64 (![] : Fin 0 → Fin S1x5x5x441x64.rank)
  reducesTo_S1x5x5x441x64_S_d0_1_2_3_4 : S1x5x5x441x64.ReducesTo [0, 1, 2, 3, 4] S_
  reducesTo_S75x441x64_S75x441_d2 : S75x441x64.ReducesTo [2] S75x441
  bcast_S_S75x441 : S_.BroadcastsInDim S75x441 (![] : Fin 0 → Fin S75x441.rank)
  reducesTo_S75x441_S_d0_1 : S75x441.ReducesTo [0, 1] S_
  reducesTo_S1x5x5x441x64_S1x5x5x441_d4 : S1x5x5x441x64.ReducesTo [4] S1x5x5x441
  bcast_S_S1x5x5x441 : S_.BroadcastsInDim S1x5x5x441 (![] : Fin 0 → Fin S1x5x5x441.rank)
  reducesTo_S1x5x5x441_S_d0_1_2_3 : S1x5x5x441.ReducesTo [0, 1, 2, 3] S_

variable [Facts]

def fn_part1 {F : FTy → Type} [FloatOps F] (main_v14 : IVec S_ 1) (main_v15 : FVec F S1x5x5x441x64 .f32) (main_cst_5 : FVec F S_ .f32) : IVec S_ 1 :=
  let main_v16 : FVec F S1x5x5x441 .f32 := (fun x v => Host.reduceAdd x v reducesTo_S1x5x5x441x64_S1x5x5x441_d4 h_S_) main_v15 main_cst_5
  let main_cst_6 : FVec F S_ .f32 := constant S_ .f32 0x00000000#32
  let main_v17 : FVec F S1x5x5x441 .f32 := broadcastInDim S1x5x5x441 ![] bcast_S_S1x5x5x441 main_cst_6
  let main_v18 : IVec S1x5x5x441 1 := cmpf .ogt main_v16 main_v17
  let main_c_7 : IVec S_ 1 := constantI S_ 1 1#1
  let main_v19 : IVec S_ 1 := (fun x v => Host.reduce IntOp.andi x v reducesTo_S1x5x5x441_S_d0_1_2_3 h_S_) main_v18 main_c_7
  let main_v20 : IVec S_ 1 := andi main_v14 main_v19
  main_v20

def fn {F : FTy → Type} [FloatOps F] (main_arg0 : FVec F S75x441x64 .f32) (main_arg1 : FVec F S1x5x5x441x64 .f32) : IVec S_ 1 :=
  let main_v0 : FVec F S75x441x64 .f32 := Host.absf main_arg0
  let main_cst : FVec F S_ .f32 := constant S_ .f32 0x7F800000#32
  let main_v1 : FVec F S75x441x64 .f32 := broadcastInDim S75x441x64 ![] bcast_S_S75x441x64 main_cst
  let main_v2 : IVec S75x441x64 1 := cmpf .olt main_v0 main_v1
  let main_c : IVec S_ 1 := constantI S_ 1 1#1
  let main_v3 : IVec S_ 1 := (fun x v => Host.reduce IntOp.andi x v reducesTo_S75x441x64_S_d0_1_2 h_S_) main_v2 main_c
  let main_v4 : FVec F S1x5x5x441x64 .f32 := Host.absf main_arg1
  let main_cst_0 : FVec F S_ .f32 := constant S_ .f32 0x7F800000#32
  let main_v5 : FVec F S1x5x5x441x64 .f32 := broadcastInDim S1x5x5x441x64 ![] bcast_S_S1x5x5x441x64 main_cst_0
  let main_v6 : IVec S1x5x5x441x64 1 := cmpf .olt main_v4 main_v5
  let main_c_1 : IVec S_ 1 := constantI S_ 1 1#1
  let main_v7 : IVec S_ 1 := (fun x v => Host.reduce IntOp.andi x v reducesTo_S1x5x5x441x64_S_d0_1_2_3_4 h_S_) main_v6 main_c_1
  let main_v8 : IVec S_ 1 := andi main_v3 main_v7
  let main_v9 : FVec F S75x441x64 .f32 := mulf main_arg0 main_arg0
  let main_cst_2 : FVec F S_ .f32 := constant S_ .f32 0x00000000#32
  let main_v10 : FVec F S75x441 .f32 := (fun x v => Host.reduceAdd x v reducesTo_S75x441x64_S75x441_d2 h_S_) main_v9 main_cst_2
  let main_cst_3 : FVec F S_ .f32 := constant S_ .f32 0x00000000#32
  let main_v11 : FVec F S75x441 .f32 := broadcastInDim S75x441 ![] bcast_S_S75x441 main_cst_3
  let main_v12 : IVec S75x441 1 := cmpf .ogt main_v10 main_v11
  let main_c_4 : IVec S_ 1 := constantI S_ 1 1#1
  let main_v13 : IVec S_ 1 := (fun x v => Host.reduce IntOp.andi x v reducesTo_S75x441_S_d0_1 h_S_) main_v12 main_c_4
  let main_v14 : IVec S_ 1 := andi main_v8 main_v13
  let main_v15 : FVec F S1x5x5x441x64 .f32 := mulf main_arg1 main_arg1
  let main_cst_5 : FVec F S_ .f32 := constant S_ .f32 0x00000000#32
  fn_part1 (F := F) main_v14 main_v15 main_cst_5
-- ==== Kernel.lean ====
abbrev S75x441x64 : Shape := ⟨3, ![75, 441, 64]⟩
abbrev S1x5x5x441x64 : Shape := ⟨5, ![1, 5, 5, 441, 64]⟩
abbrev S5x5x441x64 : Shape := ⟨4, ![5, 5, 441, 64]⟩
abbrev S25x441x64 : Shape := ⟨3, ![25, 441, 64]⟩
abbrev S_ : Shape := ⟨0, ![]⟩
abbrev S80x441x64 : Shape := ⟨3, ![80, 441, 64]⟩
abbrev S32x441x64 : Shape := ⟨3, ![32, 441, 64]⟩
abbrev S80x64 : Shape := ⟨2, ![80, 64]⟩
abbrev S8x441x64 : Shape := ⟨3, ![8, 441, 64]⟩
abbrev S8x64 : Shape := ⟨2, ![8, 64]⟩
abbrev S8x441 : Shape := ⟨2, ![8, 441]⟩
abbrev S8x441x1 : Shape := ⟨3, ![8, 441, 1]⟩
abbrev S32x64 : Shape := ⟨2, ![32, 64]⟩
abbrev S80x32 : Shape := ⟨2, ![80, 32]⟩
abbrev S64x32 : Shape := ⟨2, ![64, 32]⟩
abbrev S75x25 : Shape := ⟨2, ![75, 25]⟩

abbrev nBuf : Space → Nat
  | .hbm => 14
  | .vmem => 11
  | .smem => 0
  | _ => 0

abbrev bufTy : (tb : Table) → Fin (tcTables nBuf tb) → BufTy
  | .hbm, ⟨0, _⟩ => ⟨S75x441x64, .f32⟩
  | .hbm, ⟨1, _⟩ => ⟨S1x5x5x441x64, .f32⟩
  | .hbm, ⟨2, _⟩ => ⟨S5x5x441x64, .f32⟩
  | .hbm, ⟨3, _⟩ => ⟨S25x441x64, .f32⟩
  | .hbm, ⟨4, _⟩ => ⟨S_, .f32⟩
  | .hbm, ⟨5, _⟩ => ⟨S_, .f32⟩
  | .hbm, ⟨6, _⟩ => ⟨S80x441x64, .f32⟩
  | .hbm, ⟨7, _⟩ => ⟨S_, .f32⟩
  | .hbm, ⟨8, _⟩ => ⟨S_, .f32⟩
  | .hbm, ⟨9, _⟩ => ⟨S32x441x64, .f32⟩
  | .hbm, ⟨10, _⟩ => ⟨S80x64, .f32⟩
  | .hbm, ⟨11, _⟩ => ⟨S32x64, .f32⟩
  | .hbm, ⟨12, _⟩ => ⟨S80x32, .f32⟩
  | .hbm, ⟨13, _⟩ => ⟨S75x25, .f32⟩
  | .local _ .vmem, ⟨0, _⟩ => ⟨S8x441x64, .f32⟩
  | .local _ .vmem, ⟨1, _⟩ => ⟨S8x441x64, .f32⟩
  | .local _ .vmem, ⟨2, _⟩ => ⟨S8x64, .f32⟩
  | .local _ .vmem, ⟨3, _⟩ => ⟨S8x64, .f32⟩
  | .local _ .vmem, ⟨4, _⟩ => ⟨S8x441x64, .f32⟩
  | .local _ .vmem, ⟨5, _⟩ => ⟨S8x441x64, .f32⟩
  | .local _ .vmem, ⟨6, _⟩ => ⟨S8x64, .f32⟩
  | .local _ .vmem, ⟨7, _⟩ => ⟨S8x64, .f32⟩
  | .local _ .vmem, ⟨8, _⟩ => ⟨S80x64, .f32⟩
  | .local _ .vmem, ⟨9, _⟩ => ⟨S32x64, .f32⟩
  | .local _ .vmem, ⟨10, _⟩ => ⟨S80x32, .f32⟩
  | _, _ => ⟨S75x441x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x441x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x441x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S80x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S80x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S1x5x5x441x64_S5x5x441x64 : S1x5x5x441x64.ShapeCasts S5x5x441x64
  shapeCasts_S5x5x441x64_S25x441x64 : S5x5x441x64.ShapeCasts S25x441x64
  pads_S75x441x64_S80x441x64_050_000_000 : S75x441x64.Pads (![0, 0, 0] : Fin 3 → Nat) ![5, 0, 0] ![0, 0, 0] S80x441x64
  h_S_ : 0 < S_.numel
  pads_S25x441x64_S32x441x64_070_000_000 : S25x441x64.Pads (![0, 0, 0] : Fin 3 → Nat) ![7, 0, 0] ![0, 0, 0] S32x441x64
  inb_S8x441x64_S8x441x64_0_0_0 : ∀ a, (![0, 0, 0] : Fin 3 → Nat) a + S8x441x64.size a ≤ S8x441x64.size a
  h_S8x441x64 : 0 < S8x441x64.numel
  shapeCasts_S8x441x64_S8x441x64 : S8x441x64.ShapeCasts S8x441x64
  reduces_S8x441x64_S8x441 : S8x441x64.Reduces [2] S8x441
  shapeCasts_S8x441_S8x441x1 : S8x441.ShapeCasts S8x441x1
  broadcasts_S8x441x1_S8x441x64 : S8x441x1.Broadcasts S8x441x64
  reduces_S8x441x64_S8x64 : S8x441x64.Reduces [1] S8x64
  inb_S8x64_S8x64_0_0 : ∀ a, (![0, 0] : Fin 2 → Nat) a + S8x64.size a ≤ S8x64.size a
  h_S8x64 : 0 < S8x64.numel
  inb_S80x64_S80x64_0_0 : ∀ a, (![0, 0] : Fin 2 → Nat) a + S80x64.size a ≤ S80x64.size a
  h_S80x64 : 0 < S80x64.numel
  shapeCasts_S80x64_S80x64 : S80x64.ShapeCasts S80x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  inb_S80x32_S80x32_0_0 : ∀ a, (![0, 0] : Fin 2 → Nat) a + S80x32.size a ≤ S80x32.size a
  h_S80x32 : 0 < S80x32.numel
  slices_S80x32_S75x25_0_0 : S80x32.Slices ![0, 0] S75x25
  dot_S80x64_S64x32_S80x32_1_0_0_1_n_n_wf : DotDims.WF S80x64 S64x32 S80x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x441x64.size a ≤ S80x441x64.size a
  hwx0_0 : ∀ i : grid0.Coords, EltTy.bits .f32 = 32 ∨ (Rect.block (s := S80x441x64) S8x441x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S80x64.size a
  hwx0_1 : ∀ i : grid0.Coords, EltTy.bits .f32 = 32 ∨ (Rect.block (s := S80x64) S8x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x441x64.size a ≤ S32x441x64.size a
  hwx1_0 : ∀ i : grid1.Coords, EltTy.bits .f32 = 32 ∨ (Rect.block (s := S32x441x64) S8x441x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S32x64.size a
  hwx1_1 : ∀ i : grid1.Coords, EltTy.bits .f32 = 32 ∨ (Rect.block (s := S32x64) S8x64.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S80x64.size a ≤ S80x64.size a
  hwx2_0 : ∀ i : grid2.Coords, EltTy.bits .f32 = 32 ∨ (Rect.block (s := S80x64) S80x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S80x32.size a ≤ S80x32.size a
  hwx2_2 : ∀ i : grid2.Coords, EltTy.bits .f32 = 32 ∨ (Rect.block (s := S80x32) S80x32.size (cc2_transform_2 i) (hinb2_2 i)).WholeWords (EltTy.packing .f32)

variable [Facts₀]

def dot_S80x64_S64x32_S80x32_1_0_0_1_n_n : DotDims S80x64 S64x32 S80x32 where
  lhsContracting := [1]
  rhsContracting := [0]
  lhsNonContracting := [0]
  rhsNonContracting := [1]
  lhsBatch := []
  rhsBatch := []
  wf := dot_S80x64_S64x32_S80x32_1_0_0_1_n_n_wf

abbrev win0_0 : Pipeline.Window sig grid0 :=
  Pipeline.Window.ofSpec (Memref.whole main_v2) S8x441x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S8x441x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S80x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S80x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S75x441x64 : Shape := ⟨3, ![75, 441, 64]⟩
abbrev S1x5x5x441x64 : Shape := ⟨5, ![1, 5, 5, 441, 64]⟩
abbrev S5x5x441x64 : Shape := ⟨4, ![5, 5, 441, 64]⟩
abbrev S25x441x64 : Shape := ⟨3, ![25, 441, 64]⟩
abbrev S_ : Shape := ⟨0, ![]⟩
abbrev S75x441 : Shape := ⟨2, ![75, 441]⟩
abbrev S75x441x1 : Shape := ⟨3, ![75, 441, 1]⟩
abbrev S25x441 : Shape := ⟨2, ![25, 441]⟩
abbrev S25x441x1 : Shape := ⟨3, ![25, 441, 1]⟩
abbrev S75x64 : Shape := ⟨2, ![75, 64]⟩
abbrev S25x64 : Shape := ⟨2, ![25, 64]⟩
abbrev S75x25 : Shape := ⟨2, ![75, 25]⟩

abbrev nBuf : Space → Nat
  | .hbm => 23
  | .vmem => 0
  | .smem => 0
  | _ => 0

abbrev bufTy : (tb : Table) → Fin (tcTables nBuf tb) → BufTy
  | .hbm, ⟨0, _⟩ => ⟨S75x441x64, .f32⟩
  | .hbm, ⟨1, _⟩ => ⟨S1x5x5x441x64, .f32⟩
  | .hbm, ⟨2, _⟩ => ⟨S5x5x441x64, .f32⟩
  | .hbm, ⟨3, _⟩ => ⟨S25x441x64, .f32⟩
  | .hbm, ⟨4, _⟩ => ⟨S75x441x64, .f32⟩
  | .hbm, ⟨5, _⟩ => ⟨S_, .f32⟩
  | .hbm, ⟨6, _⟩ => ⟨S75x441, .f32⟩
  | .hbm, ⟨7, _⟩ => ⟨S75x441x1, .f32⟩
  | .hbm, ⟨8, _⟩ => ⟨S75x441x1, .f32⟩
  | .hbm, ⟨9, _⟩ => ⟨S25x441x64, .f32⟩
  | .hbm, ⟨10, _⟩ => ⟨S_, .f32⟩
  | .hbm, ⟨11, _⟩ => ⟨S25x441, .f32⟩
  | .hbm, ⟨12, _⟩ => ⟨S25x441x1, .f32⟩
  | .hbm, ⟨13, _⟩ => ⟨S25x441x1, .f32⟩
  | .hbm, ⟨14, _⟩ => ⟨S75x441x64, .f32⟩
  | .hbm, ⟨15, _⟩ => ⟨S75x441x64, .f32⟩
  | .hbm, ⟨16, _⟩ => ⟨S_, .f32⟩
  | .hbm, ⟨17, _⟩ => ⟨S75x64, .f32⟩
  | .hbm, ⟨18, _⟩ => ⟨S25x441x64, .f32⟩
  | .hbm, ⟨19, _⟩ => ⟨S25x441x64, .f32⟩
  | .hbm, ⟨20, _⟩ => ⟨S_, .f32⟩
  | .hbm, ⟨21, _⟩ => ⟨S25x64, .f32⟩
  | .hbm, ⟨22, _⟩ => ⟨S75x25, .f32⟩
  | _, _ => ⟨S75x441x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  shapeCasts_S1x5x5x441x64_S5x5x441x64 : S1x5x5x441x64.ShapeCasts S5x5x441x64
  shapeCasts_S5x5x441x64_S25x441x64 : S5x5x441x64.ShapeCasts S25x441x64
  reducesTo_S75x441x64_S75x441_d2 : S75x441x64.ReducesTo [2] S75x441
  h_S_ : 0 < S_.numel
  bcast_S75x441_S75x441x1_0_1 : S75x441.BroadcastsInDim S75x441x1 (![0, 1] : Fin 2 → Fin S75x441x1.rank)
  reducesTo_S25x441x64_S25x441_d2 : S25x441x64.ReducesTo [2] S25x441
  bcast_S25x441_S25x441x1_0_1 : S25x441.BroadcastsInDim S25x441x1 (![0, 1] : Fin 2 → Fin S25x441x1.rank)
  bcast_S75x441x1_S75x441x64_0_1_2 : S75x441x1.BroadcastsInDim S75x441x64 (![0, 1, 2] : Fin 3 → Fin S75x441x64.rank)
  reducesTo_S75x441x64_S75x64_d1 : S75x441x64.ReducesTo [1] S75x64
  bcast_S25x441x1_S25x441x64_0_1_2 : S25x441x1.BroadcastsInDim S25x441x64 (![0, 1, 2] : Fin 3 → Fin S25x441x64.rank)
  reducesTo_S25x441x64_S25x64_d1 : S25x441x64.ReducesTo [1] S25x64
  dot_S75x64_S25x64_S75x25_1_1_0_0_n_n_wf : DotDims.WF S75x64 S25x64 S75x25 [1] [1] [0] [0] [] []

variable [Facts₀]

def dot_S75x64_S25x64_S75x25_1_1_0_0_n_n : DotDims S75x64 S25x64 S75x25 where
  lhsContracting := [1]
  rhsContracting := [1]
  lhsNonContracting := [0]
  rhsNonContracting := [0]
  lhsBatch := []
  rhsBatch := []
  wf := dot_S75x64_S25x64_S75x25_1_1_0_0_n_n_wf

class Facts : Prop extends Facts₀ where

variable [Facts]
-- ==== Proof.Spec.lean ====
/-
  The mathematics of the certificate, with no program in sight.

  A descriptor array `X b j c` (batch entry `b`, spatial position `j` of 441, channel `c` of 64) is
  normalised position by position by the Euclidean length of its 64 channels and summed over the 441
  positions: `bar X b c = Σ_j X b j c / ‖X b j ·‖`.  The similarity of a query entry `i` and a support
  entry `b` is the inner product of the two summed vectors over the channels.

  The kernel multiplies by the reciprocal square root of the squared length (`barK`), the reference
  divides by the square root (`barR`).  On the extended reals the two agree at every position whose
  squared length is positive: at a positive real `r` both are the product with `(√r)⁻¹`, and at `+∞` both
  are `0`.  They differ only at squared length `0` (there `0 · rsqrt 0 = 0 · ⊤ = 0` while `0 / √0 = 0 / 0`
  is the junk value `⊥`), which is the one case the precondition's row conjuncts exclude.
-/
import Idealize.ShloMosaic.PureOps.Ideal
import Idealize.ShloMosaic.Lib.ValueIdx

noncomputable section

namespace Cert.Spec

open Idealize.ShloMosaic Idealize.ShloMosaic.ValueIdx

/-- The squared Euclidean length of the 64 channels at position `j` of entry `b`. -/
def rowSq {n : ℕ} (X : Fin n → Fin 441 → Fin 64 → EReal) (b : Fin n) (j : Fin 441) : EReal :=
  ∑ c : Fin 64, X b j c * X b j c

/-- The kernel's summed normalised descriptor: each entry times the reciprocal square root of its position's
    squared length, summed over the positions. -/
def barK {n : ℕ} (X : Fin n → Fin 441 → Fin 64 → EReal) (b : Fin n) (c : Fin 64) : EReal :=
  ∑ j : Fin 441, X b j c * Ideal.rsqrt (rowSq X b j)

/-- The reference's: each entry divided by the square root of its position's squared length. -/
def barR {n : ℕ} (X : Fin n → Fin 441 → Fin 64 → EReal) (b : Fin n) (c : Fin 64) : EReal :=
  ∑ j : Fin 441, Ideal.div (X b j c) (Ideal.sqrt (rowSq X b j))

/-- The similarity table in the kernel's form: the inner product over the channels of the two summed vectors. -/
def simK {n k : ℕ} (Q : Fin n → Fin 441 → Fin 64 → EReal) (S : Fin k → Fin 441 → Fin 64 → EReal)
    (i : Fin n) (b : Fin k) : EReal :=
  ∑ c : Fin 64, barK Q i c * barK S b c

/-- The similarity table in the reference's form. -/
def simR {n k : ℕ} (Q : Fin n → Fin 441 → Fin 64 → EReal) (S : Fin k → Fin 441 → Fin 64 → EReal)
    (i : Fin n) (b : Fin k) : EReal :=
  ∑ c : Fin 64, barR Q i c * barR S b c

/-- The support set: domain 0 of the five-axis input, its 5 × 5 classes and shots read as one axis of 25
    (entry `s` is class `s / 5`, shot `s % 5`). -/
def sup (x : (⟨5, ![1, 5, 5, 441, 64]⟩ : Shape).Idx → EReal) (s : Fin 25) (j : Fin 441) (c : Fin 64) : EReal :=
  x (ix5 (0 : Fin 1) (⟨s.val / 5, by have := s.isLt; omega⟩ : Fin 5) (⟨s.val % 5, Nat.mod_lt _ (by decide)⟩ : Fin 5) j c)

/-- The query array read by coordinates. -/
def qry (x : (⟨3, ![75, 441, 64]⟩ : Shape).Idx → EReal) (b : Fin 75) (j : Fin 441) (c : Fin 64) : EReal :=
  x (ix3 b j c)

/-- Multiplying by the reciprocal square root of a positive extended real is dividing by its square root. -/
theorem mul_rsqrt_eq_div_sqrt (x s : EReal) (hs : 0 < s) : x * Ideal.rsqrt s = Ideal.div x (Ideal.sqrt s) := by
  induction s using EReal.rec with
  | bot => exact absurd hs (not_lt.2 bot_le)
  | top =>
    show x * 0 = Ideal.div x ⊤
    unfold Ideal.div
    rw [if_neg (by decide), EReal.inv_top]
  | coe r =>
    have hr : 0 < r := by exact_mod_cast hs
    have hne : Real.sqrt r ≠ 0 := (Real.sqrt_pos.2 hr).ne'
    show x * (if r < 0 then (⊥ : EReal) else if r = 0 then (⊤ : EReal) else (((Real.sqrt r)⁻¹ : ℝ) : EReal))
      = Ideal.div x (if r < 0 then (⊥ : EReal) else ((Real.sqrt r : ℝ) : EReal))
    rw [if_neg (not_lt.2 hr.le), if_neg hr.ne', if_neg (not_lt.2 hr.le)]
    unfold Ideal.div
    rw [if_neg (by exact_mod_cast hne), EReal.coe_inv]

/-- Where every position has a positive squared length the two forms of the summed vector agree. -/
theorem barK_eq_barR {n : ℕ} (X : Fin n → Fin 441 → Fin 64 → EReal) (h : ∀ b j, 0 < rowSq X b j)
    (b : Fin n) (c : Fin 64) : barK X b c = barR X b c :=
  Finset.sum_congr rfl fun j _ => mul_rsqrt_eq_div_sqrt _ _ (h b j)

/-- And so do the two similarity tables. -/
theorem simK_eq_simR {n k : ℕ} (Q : Fin n → Fin 441 → Fin 64 → EReal) (S : Fin k → Fin 441 → Fin 64 → EReal)
    (hQ : ∀ b j, 0 < rowSq Q b j) (hS : ∀ b j, 0 < rowSq S b j) (i : Fin n) (b : Fin k) :
    simK Q S i b = simR Q S i b :=
  Finset.sum_congr rfl fun c _ => by rw [barK_eq_barR Q hQ, barK_eq_barR S hS]

end Cert.Spec

end
-- ==== Proof.PreRead.lean ====
/-
  The precondition read back: beside finiteness of every input it states, for the query array and for the
  five-axis support input, that the squared length of the 64 channels is positive at every entry and
  position.  Here those two conjuncts are opened into the facts the comparison of the two programs uses.
-/
import proofs.«148449_j12927851560966_1_alg».proof.Defs
import proofs.«148449_j12927851560966_1_alg».proof.Proof.Gen.Pre_finite_inputs
import proofs.«148449_j12927851560966_1_alg».proof.Proof.Spec
import Idealize.ShloMosaic.Lib.ReduceAll
import Idealize.ShloMosaic.PureOps.Ideal.Laws

noncomputable section

namespace Cert.PreRead

open Idealize.ShloMosaic Idealize.ShloMosaic.ValueIdx

open Cert.Pre_finite_inputs in
/-- The scalar shape has one index. -/
private instance subsingleton_scalar : Subsingleton S_.Idx := ⟨fun a b => funext fun d => d.elim0⟩

/-- A strict comparison against the zero constant that came out true: the left operand is positive. -/
private theorem pos_of_ogt (a : EReal) (h : Ideal.cmp .ogt a (Ideal.ofBits .f32 0x00000000#32) = 1#1) : 0 < a := by
  rw [Ideal.ofBits_zero_f32] at h
  by_contra hn
  have h0 : Ideal.cmp .ogt a 0 = 0#1 := by
    show BitVec.ofBool (decide (0 < a)) = 0#1
    rw [decide_eq_false hn]; rfl
  rw [h0] at h
  exact absurd h (by decide)

section
open Cert.Pre_finite_inputs
variable [Cert.Pre_finite_inputs.Facts]

/-- The sum over the channel axis of a rank-3 array, started from zero, read at (entry, position): the sum of the
    64 channels there. -/
private theorem sum_q (y : FVec Ideal S75x441x64 .f32) (b : Fin 75) (j : Fin 441) :
    Host.reduceAdd (F := Ideal) y (constant (F := Ideal) S_ .f32 0x00000000#32) Facts.reducesTo_S75x441x64_S75x441_d2 Facts.h_S_
        (ix2 b j) = ∑ c : Fin 64, y (ix3 b j c) := by
  simp only [Host.reduceAdd, Ideal.hostReduceAdd_def]
  rw [Ideal.hostReduceAdd_single Facts.reducesTo_S75x441x64_S75x441_d2 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The sum over the channel axis of the rank-5 array, started from zero, read at its four remaining coordinates. -/
private theorem sum_s (y : FVec Ideal S1x5x5x441x64 .f32) (d : Fin 1) (a b : Fin 5) (j : Fin 441) :
    Host.reduceAdd (F := Ideal) y (constant (F := Ideal) S_ .f32 0x00000000#32) Facts.reducesTo_S1x5x5x441x64_S1x5x5x441_d4 Facts.h_S_
        (ix4 d a b j) = ∑ c : Fin 64, y (ix5 d a b j c) := by
  simp only [Host.reduceAdd, Ideal.hostReduceAdd_def]
  rw [Ideal.hostReduceAdd_single Facts.reducesTo_S1x5x5x441x64_S1x5x5x441_d4 (by decide)]
  show Ideal.ofBits .f32 0x00000000#32 + _ = _
  rw [Ideal.ofBits_zero_f32, zero_add]
  refine Finset.sum_congr rfl fun k _ => ?_
  exact congrArg y (funext fun e => Fin.ext (by
    match e with | ⟨0, _⟩ => rfl | ⟨1, _⟩ => rfl | ⟨2, _⟩ => rfl | ⟨3, _⟩ => rfl | ⟨4, _⟩ => rfl))

end

/-- Under the precondition every position of every query entry, and of every support entry, has a positive
    squared length. -/
theorem rows_pos [Cert.Pre_finite_inputs.Facts]
    (x0 : FVec Ideal Cert.Pre_finite_inputs.S75x441x64 .f32) (x1 : FVec Ideal Cert.Pre_finite_inputs.S1x5x5x441x64 .f32)
    (h : Cert.Pre_finite_inputs.fn (F := Ideal) x0 x1 = fun _ => 1#1) :
    (∀ (b : Fin 75) (j : Fin 441), 0 < Cert.Spec.rowSq (Cert.Spec.qry x0) b j)
      ∧ (∀ (s : Fin 25) (j : Fin 441), 0 < Cert.Spec.rowSq (Cert.Spec.sup x1) s j) := by
  -- the predicate at its one index is a conjunction of four words; the last two are the row conjuncts
  have h0 := congrFun h ValueIdx.ix0
  dsimp only [Cert.Pre_finite_inputs.fn, Cert.Pre_finite_inputs.fn_part1] at h0
  obtain ⟨h14, h19⟩ := IntOp.andi_eq_one.1 h0
  obtain ⟨h8, h13⟩ := IntOp.andi_eq_one.1 h14
  clear h0 h14 h8
  refine ⟨fun b j => ?_, fun s j => ?_⟩
  · -- the conjunction over [75, 441] holds at (b, j): the sum of squares there exceeds zero
    have e := Host.reduce_andi_all _ _ _ _ _ h13 (ix2 b j)
    have p := pos_of_ogt _ e
    rw [sum_q] at p
    exact p
  · -- the conjunction over [1, 5, 5, 441] holds at (0, s / 5, s % 5, j), the coordinates support entry s is read at
    have e := Host.reduce_andi_all _ _ _ _ _ h19
      (ix4 (0 : Fin 1) (⟨s.val / 5, by have := s.isLt; omega⟩ : Fin 5) (⟨s.val % 5, Nat.mod_lt _ (by decide)⟩ : Fin 5) j)
    have p := pos_of_ogt _ e
    rw [sum_s] at p
    exact p

end Cert.PreRead

end
-- ==== Proof.Layout.lean ====
/-
  The two reshapes that turn the five-axis support input [1, 5, 5, 441, 64] into the three-axis array
  [25, 441, 64], read at an entry: row-major order is kept, so entry (s, j, c) of the result is entry
  (0, s / 5, s % 5, j, c) of the input.  Both programs apply exactly these two reshapes to their second argument.
-/
import Idealize.ShloMosaic.Lib.Pipeline.Value
import Idealize.ShloMosaic.Lib.ValueIdx
import proofs.«148449_j12927851560966_1_alg».proof.Proof.Spec

noncomputable section

namespace Cert.Layout

open Idealize.ShloMosaic Idealize.ShloMosaic.ValueIdx

theorem reshape_sup (x : (⟨5, ![1, 5, 5, 441, 64]⟩ : Shape).Idx → EReal)
    (h1 : (⟨5, ![1, 5, 5, 441, 64]⟩ : Shape).ShapeCasts ⟨4, ![5, 5, 441, 64]⟩)
    (h2 : (⟨4, ![5, 5, 441, 64]⟩ : Shape).ShapeCasts ⟨3, ![25, 441, 64]⟩)
    (s : Fin 25) (j : Fin 441) (c : Fin 64) :
    shapeCast (⟨3, ![25, 441, 64]⟩ : Shape) (shapeCast (⟨4, ![5, 5, 441, 64]⟩ : Shape) x h1) h2 (ix3 s j c)
      = Cert.Spec.sup x s j c := by
  have hs := s.isLt
  have hj := j.isLt
  have hc := c.isLt
  rw [shapeCast_apply _ h2 (ix3 s j c)
    (ix4 (⟨s.val / 5, by omega⟩ : Fin 5) (⟨s.val % 5, Nat.mod_lt _ (by decide)⟩ : Fin 5) j c)
    (by rewrite [Shape.rowMajor_val_four, Shape.rowMajor_val_three]
        show ((s.val / 5 * 5 + s.val % 5) * 441 + j.val) * 64 + c.val = (s.val * 441 + j.val) * 64 + c.val
        omega)]
  rw [shapeCast_apply _ h1 _
    (ix5 (0 : Fin 1) (⟨s.val / 5, by omega⟩ : Fin 5) (⟨s.val % 5, Nat.mod_lt _ (by decide)⟩ : Fin 5) j c)
    (by rewrite [Shape.rowMajor_val_five, Shape.rowMajor_val_four]
        show (((0 * 5 + s.val / 5) * 5 + s.val % 5) * 441 + j.val) * 64 + c.val = ((s.val / 5 * 5 + s.val % 5) * 441 + j.val) * 64 + c.val
        omega)]
  rfl

end Cert.Layout

end
-- ==== Proof.RefValue.lean ====
/-
  The reference read at an entry of its result: the inner product over the channels of the two summed
  vectors, each entry divided by the square root of its position's squared length.
-/
import proofs.«148449_j12927851560966_1_alg».proof.Proof.Gen.ReferenceIdeal.Read
import proofs.«148449_j12927851560966_1_alg».proof.Proof.Spec
import proofs.«148449_j12927851560966_1_alg».proof.Proof.Layout

noncomputable section

namespace Cert.RefValue

open Idealize.ShloMosaic Idealize.ShloMosaic.ValueIdx Cert.ReferenceIdeal Cert.ReferenceIdeal.Read

/-! ## The query array -/

/-- The sum of squares the reference forms at position `j` of query entry `p` is the squared length of
    that position's channels: the sum starts from `0` and adds the 64 squares. -/
private theorem qry_rowSq (x0 : (⟨S75x441x64, .f32⟩ : BufTy).Contents (Elt Ideal)) (p : Fin 75) (j : Fin 441) :
    val_main_call0_v1 (F := Ideal) x0 (ix2 p j) = Cert.Spec.rowSq (Cert.Spec.qry x0) p j := by
  rw [val_main_call0_v1_apply, val_main_call0_cst_apply, Ideal.ofBits_def, Ideal.ofBits_zero_f32, zero_add]
  unfold Cert.Spec.rowSq Cert.Spec.qry
  refine Finset.sum_congr rfl fun c _ => ?_
  have e : idx_main_call0_v1 (ix2 p j) c = ix3 p j c :=
    funext fun a => Fin.ext (by match a with | ⟨0, _⟩ => rfl | ⟨1, _⟩ => rfl | ⟨2, _⟩ => rfl)
  rw [e]
  rfl

/-- The divisor at entry `(p, j, c)`: the square root of the squared length at `(p, j)`, the same for
    every channel `c`. -/
private theorem qry_sqrt (x0 : (⟨S75x441x64, .f32⟩ : BufTy).Contents (Elt Ideal)) (p : Fin 75) (j : Fin 441)
    (c : Fin 64) :
    val_main_v4 (F := Ideal) x0 (ix3 p j c) = Ideal.sqrt (Cert.Spec.rowSq (Cert.Spec.qry x0) p j) := by
  rw [val_main_v4_apply, val_main_v2_apply, val_main_call0_v2_apply, Ideal.hostUnary_sqrt_def]
  have e : idx_main_call0_v2 (idx_main_v4 (ix3 p j c)) = ix2 p j :=
    funext fun a => Fin.ext (by match a with | ⟨0, _⟩ => rfl | ⟨1, _⟩ => rfl)
  rw [e, qry_rowSq]

/-- The reference's summed normalised query descriptor. -/
private theorem qry_bar (x0 : (⟨S75x441x64, .f32⟩ : BufTy).Contents (Elt Ideal)) (p : Fin 75) (c : Fin 64) :
    val_main_v6 (F := Ideal) x0 (ix2 p c) = Cert.Spec.barR (Cert.Spec.qry x0) p c := by
  rw [val_main_v6_apply, val_main_cst_apply, Ideal.ofBits_def, Ideal.ofBits_zero_f32, zero_add]
  unfold Cert.Spec.barR
  refine Finset.sum_congr rfl fun j _ => ?_
  have e : idx_main_v6 (ix2 p c) j = ix3 p j c :=
    funext fun a => Fin.ext (by match a with | ⟨0, _⟩ => rfl | ⟨1, _⟩ => rfl | ⟨2, _⟩ => rfl)
  rw [e, val_main_v5_apply, Ideal.hostDivf_def, qry_sqrt]
  rfl

/-! ## The support array -/

/-- The reshaped support array read by coordinates. -/
private theorem sup_read (x1 : (⟨S1x5x5x441x64, .f32⟩ : BufTy).Contents (Elt Ideal)) (s : Fin 25) (j : Fin 441)
    (c : Fin 64) :
    val_main_v1 (F := Ideal) x1 (ix3 s j c) = Cert.Spec.sup x1 s j c :=
  Cert.Layout.reshape_sup x1 _ _ s j c

/-- The sum of squares at position `j` of support entry `s`. -/
private theorem sup_rowSq (x1 : (⟨S1x5x5x441x64, .f32⟩ : BufTy).Contents (Elt Ideal)) (s : Fin 25) (j : Fin 441) :
    val_main_call1_v1 (F := Ideal) x1 (ix2 s j) = Cert.Spec.rowSq (Cert.Spec.sup x1) s j := by
  rw [val_main_call1_v1_apply, val_main_call1_cst_apply, Ideal.ofBits_def, Ideal.ofBits_zero_f32, zero_add]
  unfold Cert.Spec.rowSq
  refine Finset.sum_congr rfl fun c _ => ?_
  have e : idx_main_call1_v1 (ix2 s j) c = ix3 s j c :=
    funext fun a => Fin.ext (by match a with | ⟨0, _⟩ => rfl | ⟨1, _⟩ => rfl | ⟨2, _⟩ => rfl)
  rw [e, val_main_call1_v0_apply, Ideal.mulf_def, sup_read]

/-- The divisor at entry `(s, j, c)` of the support array. -/
private theorem sup_sqrt (x1 : (⟨S1x5x5x441x64, .f32⟩ : BufTy).Contents (Elt Ideal)) (s : Fin 25) (j : Fin 441)
    (c : Fin 64) :
    val_main_v7 (F := Ideal) x1 (ix3 s j c) = Ideal.sqrt (Cert.Spec.rowSq (Cert.Spec.sup x1) s j) := by
  rw [val_main_v7_apply, val_main_v3_apply, val_main_call1_v2_apply, Ideal.hostUnary_sqrt_def]
  have e : idx_main_call1_v2 (idx_main_v7 (ix3 s j c)) = ix2 s j :=
    funext fun a => Fin.ext (by match a with | ⟨0, _⟩ => rfl | ⟨1, _⟩ => rfl)
  rw [e, sup_rowSq]

/-- The reference's summed normalised support descriptor. -/
private theorem sup_bar (x1 : (⟨S1x5x5x441x64, .f32⟩ : BufTy).Contents (Elt Ideal)) (s : Fin 25) (c : Fin 64) :
    val_main_v9 (F := Ideal) x1 (ix2 s c) = Cert.Spec.barR (Cert.Spec.sup x1) s c := by
  rw [val_main_v9_apply, val_main_cst_0_apply, Ideal.ofBits_def, Ideal.ofBits_zero_f32, zero_add]
  unfold Cert.Spec.barR
  refine Finset.sum_congr rfl fun j _ => ?_
  have e : idx_main_v9 (ix2 s c) j = ix3 s j c :=
    funext fun a => Fin.ext (by match a with | ⟨0, _⟩ => rfl | ⟨1, _⟩ => rfl | ⟨2, _⟩ => rfl)
  rw [e, val_main_v8_apply, Ideal.hostDivf_def, sup_sqrt, sup_read]

/-! ## The result -/

/-- Entry (p, q) of the reference's result is the reference form of the similarity of query entry `p` and
    support entry `q`. -/
theorem ref_apply (x0 : (⟨S75x441x64, .f32⟩ : BufTy).Contents (Elt Ideal)) (x1 : (⟨S1x5x5x441x64, .f32⟩ : BufTy).Contents (Elt Ideal))
    (p : Fin 75) (q : Fin 25) :
    val_main_v10 (F := Ideal) x0 x1 (ix2 p q) = Cert.Spec.simR (Cert.Spec.qry x0) (Cert.Spec.sup x1) p q := by
  rw [val_main_v10_apply]
  unfold Cert.Spec.simR
  refine Finset.sum_congr rfl fun c _ => ?_
  have el : lidx_main_v10 (ix2 p q) c = ix2 p c :=
    funext fun a => Fin.ext (by match a with | ⟨0, _⟩ => rfl | ⟨1, _⟩ => rfl)
  have er : ridx_main_v10 (ix2 p q) c = ix2 q c :=
    funext fun a => Fin.ext (by match a with | ⟨0, _⟩ => rfl | ⟨1, _⟩ => rfl)
  rw [el, er, qry_bar, sup_bar]

end Cert.RefValue

end
-- ==== Proof.Table.lean ====
/-
  Two small facts about the summed normalised vector, and a table of two coordinates as an array.
  The summed vector of entry `b` depends only on entry `b` of the array: two arrays (of any numbers of
  entries) that agree on one entry each have the same summed vector there.
-/
import proofs.«148449_j12927851560966_1_alg».proof.Proof.Spec

noncomputable section

namespace Cert.Spec

open Idealize.ShloMosaic Idealize.ShloMosaic.ValueIdx

/-- A function of a row and a column coordinate as an array of shape [n, k]. -/
def tab2 {n k : ℕ} (f : Fin n → Fin k → EReal) : (⟨2, ![n, k]⟩ : Shape).Idx → EReal :=
  fun i => f ⟨(i 0).val, idx2_lt0 i⟩ ⟨(i 1).val, idx2_lt1 i⟩

theorem tab2_ix2 {n k : ℕ} (f : Fin n → Fin k → EReal) (a : Fin n) (b : Fin k) : tab2 f (ix2 a b) = f a b := rfl

/-- The summed vector of an entry is a function of that entry alone. -/
theorem barK_congr {n k : ℕ} (X : Fin n → Fin 441 → Fin 64 → EReal) (Y : Fin k → Fin 441 → Fin 64 → EReal)
    (b : Fin n) (b' : Fin k) (h : ∀ j c, X b j c = Y b' j c) (c : Fin 64) : barK X b c = barK Y b' c := by
  unfold barK rowSq
  refine Finset.sum_congr rfl fun j _ => ?_
  rw [h j c]
  refine congrArg (fun s => Y b' j c * Ideal.rsqrt s) (Finset.sum_congr rfl fun c' _ => ?_)
  rw [h j c']

end Cert.Spec

end
-- ==== Proof.Payloads.lean ====
/-
  The two kernel bodies' stored values read at an entry.  The normalising body stores, at (p, c), the sum over
  the 441 positions of the block's entry times the reciprocal square root of its position's squared length;
  the product body stores, at (i, b), the inner product over the 64 channels of row `i` of its first block and
  row `b` of its second.
-/
import proofs.«148449_j12927851560966_1_alg».proof.Proof.Gen.KernelIdeal.Skeleton
import proofs.«148449_j12927851560966_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Payloads

open Idealize.ShloMosaic Idealize.ShloMosaic.ValueIdx Cert.KernelIdeal Cert.KernelIdeal.Gen

variable [Cert.KernelIdeal.Facts]

/-- The sum over the 441 positions of an [8,441,64] block, read at (p, c): the position coordinate is inserted
    between the two kept ones. -/
private theorem sum_positions (v : FVec Ideal S8x441x64 .f32) (h : S8x441x64.Reduces [1] S8x64) (hφ : FKind.Formats .f32)
    (hacc : (0x00000000#32 : BitVec 32) = FKind.add.neutral .f32 hφ) (p : Fin 8) (c : Fin 64) :
    multiReduction .add [1] S8x64 v 0x00000000#32 h hφ hacc (ix2 p c) = ∑ k : Fin 441, v (ix3 p k c) := by
  refine (Ideal.multiReduction_add_single v 0x00000000#32 h hφ hacc (ix2 p c)).trans ?_
  refine Finset.sum_congr rfl fun k _ => ?_
  exact congrArg v (funext fun a => Fin.ext (by match a with | ⟨0, _⟩ => rfl | ⟨1, _⟩ => rfl | ⟨2, _⟩ => rfl))

/-- The sum over the 64 channels of an [8,441,64] block, read at (p, j): the channel coordinate comes last. -/
private theorem sum_channels (v : FVec Ideal S8x441x64 .f32) (h : S8x441x64.Reduces [2] S8x441) (hφ : FKind.Formats .f32)
    (hacc : (0x00000000#32 : BitVec 32) = FKind.add.neutral .f32 hφ) (p : Fin 8) (j : Fin 441) :
    multiReduction .add [2] S8x441 v 0x00000000#32 h hφ hacc (ix2 p j) = ∑ k : Fin 64, v (ix3 p j k) := by
  refine (Ideal.multiReduction_add_single v 0x00000000#32 h hφ hacc (ix2 p j)).trans ?_
  refine Finset.sum_congr rfl fun k _ => ?_
  exact congrArg v (funext fun a => Fin.ext (by match a with | ⟨0, _⟩ => rfl | ⟨1, _⟩ => rfl | ⟨2, _⟩ => rfl))

/-- An [8,441] array cast to [8,441,1] reads, at (p, j, u), the operand at (p, j): a trailing unit axis does not move
    the row-major position. -/
private theorem cast_col {α : Type} (v : S8x441.Idx → α) (h : S8x441.ShapeCasts S8x441x1) (p : Fin 8) (j : Fin 441) (u : Fin 1) :
    shapeCast S8x441x1 v h (ix3 p j u) = v (ix2 p j) :=
  shapeCast_apply v h _ _ (by
    have hu : u.val = 0 := by omega
    rw [Shape.rowMajor_val_three, Shape.rowMajor_val_two]
    show p.val * 441 + j.val = (p.val * 441 + j.val) * 1 + u.val
    omega)

/-- An [8,441,1] array broadcast to [8,441,64] reads, at (p, j, c), the operand's one entry at (p, j). -/
private theorem bcast_col {α : Type} (v : S8x441x1.Idx → α) (h : S8x441x1.Broadcasts S8x441x64) (p : Fin 8) (j : Fin 441) (c : Fin 64) :
    broadcastTo S8x441x64 v h (ix3 p j c) = v (ix3 p j (0 : Fin 1)) := by
  refine broadcastTo_apply v h (ix3 p j c) (ix3 p j (0 : Fin 1)) fun ax => ?_
  match ax with
  | ⟨0, _⟩ => rfl
  | ⟨1, _⟩ => rfl
  | ⟨2, _⟩ => rfl

/-- The product's left operand index at output (i, b) and contraction position q: row i … -/
private theorem lhs_row (i : S80x32.Idx) (q : dot_S80x64_S64x32_S80x32_1_0_0_1_n_n.contr.Idx) :
    (dot_S80x64_S64x32_S80x32_1_0_0_1_n_n.lhsIdx i q 0).val = (i 0).val := by
  unfold DotDims.lhsIdx
  rw [dif_neg (show ¬(0 : Fin S80x64.rank) ∈ dot_S80x64_S64x32_S80x32_1_0_0_1_n_n.lhsBatch by decide), dif_pos (show (0 : Fin S80x64.rank) ∈ dot_S80x64_S64x32_S80x32_1_0_0_1_n_n.lhsNonContracting by decide)]
  rfl
/-- … and column q. -/
private theorem lhs_col (i : S80x32.Idx) (q : dot_S80x64_S64x32_S80x32_1_0_0_1_n_n.contr.Idx) :
    (dot_S80x64_S64x32_S80x32_1_0_0_1_n_n.lhsIdx i q 1).val = (q ⟨0, by decide⟩).val :=
  dot_S80x64_S64x32_S80x32_1_0_0_1_n_n.lhsIdx_val_of_single rfl i q
/-- The right operand index there: row q … -/
private theorem rhs_row (i : S80x32.Idx) (q : dot_S80x64_S64x32_S80x32_1_0_0_1_n_n.contr.Idx) :
    (dot_S80x64_S64x32_S80x32_1_0_0_1_n_n.rhsIdx i q 0).val = (q ⟨0, by decide⟩).val :=
  dot_S80x64_S64x32_S80x32_1_0_0_1_n_n.rhsIdx_val_of_single rfl i q
/-- … and column b. -/
private theorem rhs_col (i : S80x32.Idx) (q : dot_S80x64_S64x32_S80x32_1_0_0_1_n_n.contr.Idx) :
    (dot_S80x64_S64x32_S80x32_1_0_0_1_n_n.rhsIdx i q 1).val = (i 1).val := by
  unfold DotDims.rhsIdx
  rw [dif_neg (show ¬(1 : Fin S64x32.rank) ∈ dot_S80x64_S64x32_S80x32_1_0_0_1_n_n.rhsBatch by decide), dif_pos (show (1 : Fin S64x32.rank) ∈ dot_S80x64_S64x32_S80x32_1_0_0_1_n_n.rhsNonContracting by decide)]
  rfl

/-- The [80,64] × [64,32] product accumulated into the zero block, read at (i, b): the sum over the 64 contraction
    positions of the left operand at (i, k) times the right at (k, b). -/
private theorem product_apply (l : FVec Ideal S80x64 .bf16) (r : FVec Ideal S64x32 .bf16) (i : Fin 80) (b : Fin 32) :
    matmul dot_S80x64_S64x32_S80x32_1_0_0_1_n_n none l r (constant (F := Ideal) S80x32 .f32 0x00000000#32) (ix2 i b)
      = ∑ k : Fin 64, l (ix2 i k) * r (ix2 k b) := by
  simp only [matmul]
  rw [Ideal.matmul_constant_zero_apply, ← Equiv.sum_comp (ValueIdx.contrEquiv1 dot_S80x64_S64x32_S80x32_1_0_0_1_n_n 64 rfl rfl).symm]
  refine Finset.sum_congr rfl fun k _ => ?_
  have hk := ValueIdx.contrEquiv1_symm_val dot_S80x64_S64x32_S80x32_1_0_0_1_n_n 64 rfl rfl k
  have el : dot_S80x64_S64x32_S80x32_1_0_0_1_n_n.lhsIdx (ix2 i b) ((ValueIdx.contrEquiv1 dot_S80x64_S64x32_S80x32_1_0_0_1_n_n 64 rfl rfl).symm k) = ix2 i k := funext fun a => Fin.ext (by
    match a with
    | ⟨0, _⟩ => exact lhs_row _ _
    | ⟨1, _⟩ => exact (lhs_col _ _).trans hk)
  have er : dot_S80x64_S64x32_S80x32_1_0_0_1_n_n.rhsIdx (ix2 i b) ((ValueIdx.contrEquiv1 dot_S80x64_S64x32_S80x32_1_0_0_1_n_n 64 rfl rfl).symm k) = ix2 k b := funext fun a => Fin.ext (by
    match a with
    | ⟨0, _⟩ => exact (rhs_row _ _).trans hk
    | ⟨1, _⟩ => exact rhs_col _ _)
  rw [el, er]

/-- The first normalising launch's stored value at (p, c). -/
theorem bar0_apply (x : FVec Ideal S8x441x64 .f32) (p : Fin 8) (c : Fin 64) :
    k0_pay1 (F := Ideal) x (ix2 p c) = Cert.Spec.barK (fun b j c' => x (ix3 b j c')) p c := by
  unfold k0_pay1
  dsimp only
  -- the outer sum over the positions, term by term
  refine (sum_positions _ _ _ _ p c).trans ?_
  unfold Cert.Spec.barK
  refine Finset.sum_congr rfl fun j _ => ?_
  -- the cast to the same shape is the identity, so the term is the entry times the broadcast factor
  rw [shapeCast_self]
  refine (mulf_apply _ _ _).trans ?_
  refine congrArg (x (ix3 p j c) * ·) ?_
  -- the factor at (p, j, c) is the reciprocal square root of the column entry at (p, j), the sum of the 64 squares
  refine (bcast_col _ _ p j c).trans ?_
  show Ideal.rsqrt (shapeCast S8x441x1 _ _ (ix3 p j (0 : Fin 1))) = _
  refine congrArg Ideal.rsqrt ?_
  refine (cast_col _ _ p j 0).trans ?_
  refine (sum_channels _ _ _ _ p j).trans ?_
  rfl

/-- The second normalising launch runs the same body. -/
theorem bar1_apply (x : FVec Ideal S8x441x64 .f32) (p : Fin 8) (c : Fin 64) :
    k1_pay1 (F := Ideal) x (ix2 p c) = Cert.Spec.barK (fun b j c' => x (ix3 b j c')) p c := by
  unfold k1_pay1
  dsimp only
  -- the outer sum over the positions, term by term
  refine (sum_positions _ _ _ _ p c).trans ?_
  unfold Cert.Spec.barK
  refine Finset.sum_congr rfl fun j _ => ?_
  -- the cast to the same shape is the identity, so the term is the entry times the broadcast factor
  rw [shapeCast_self]
  refine (mulf_apply _ _ _).trans ?_
  refine congrArg (x (ix3 p j c) * ·) ?_
  -- the factor at (p, j, c) is the reciprocal square root of the column entry at (p, j), the sum of the 64 squares
  refine (bcast_col _ _ p j c).trans ?_
  show Ideal.rsqrt (shapeCast S8x441x1 _ _ (ix3 p j (0 : Fin 1))) = _
  refine congrArg Ideal.rsqrt ?_
  refine (cast_col _ _ p j 0).trans ?_
  refine (sum_channels _ _ _ _ p j).trans ?_
  rfl

/-- The product launch's stored value at (i, b). -/
theorem mm_apply (u : FVec Ideal S80x64 .f32) (v : FVec Ideal S32x64 .f32) (i : Fin 80) (b : Fin 32) :
    k2_pay1 (F := Ideal) u v (ix2 i b) = ∑ c : Fin 64, u (ix2 i c) * v (ix2 b c) := by
  unfold k2_pay1
  dsimp only
  refine (product_apply _ _ i b).trans ?_
  refine Finset.sum_congr rfl fun k _ => ?_
  -- the casts to the same shape and the format changes are the identity; the transposed block at (k, b) is the block at (b, k)
  rw [shapeCast_self, shapeCast_self]
  refine congrArg (u (ix2 i k) * ·) ?_
  exact transpose_ix2_apply _ _ k b

end Cert.Payloads

end
-- ==== Proof.RegionValue.lean ====
/-
  The three launches read as values, each at whatever contents `V` it finds its arrays in.

  A normalising launch walks its array eight entries at a time: point `t` reads entries `8t … 8t + 7`, stores
  their summed normalised vectors, and writes them back as rows `8t … 8t + 7` of its result.  The summed vector
  of an entry depends on that entry alone, so the blocks are the restrictions of ONE table — the summed
  normalised vector of every entry of the array — and they tile the result: the result array ends holding
  that table.  The product launch has one point, whose blocks are the whole arrays: its result is the table
  of inner products over the channels of a row of the first array with a row of the second.
-/
import proofs.«148449_j12927851560966_1_alg».proof.Proof.Gen.KernelIdeal.Frame
import proofs.«148449_j12927851560966_1_alg».proof.Proof.Spec
import proofs.«148449_j12927851560966_1_alg».proof.Proof.Table
import proofs.«148449_j12927851560966_1_alg».proof.Proof.Payloads
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The table of summed normalised vectors of an array of `n` entries. -/
abbrev barTab {n : ℕ} (A : (⟨3, ![n, 441, 64]⟩ : Shape).Idx → EReal) : (⟨2, ![n, 64]⟩ : Shape).Idx → EReal :=
  Cert.Spec.tab2 (Cert.Spec.barK fun b j c => A (ix3 b j c))

/-- The table of inner products over the channels of the rows of two tables. -/
abbrev prodTab (A : S80x64.Idx → EReal) (B : S32x64.Idx → EReal) : S80x32.Idx → EReal :=
  Cert.Spec.tab2 fun (i : Fin 80) (b : Fin 32) => ∑ c : Fin 64, A (ix2 i c) * B (ix2 b c)

/-- A block of eight entries that is entries `8r … 8r + 7` of an array has, as its stored table, rows
    `8r … 8r + 7` of the array's table. -/
theorem bar_blk {n : ℕ} (pay : FVec Ideal S8x441x64 .f32 → FVec Ideal S8x64 .f32)
    (hpay : ∀ (x : FVec Ideal S8x441x64 .f32) (p : Fin 8) (c : Fin 64),
      pay x (ix2 p c) = Cert.Spec.barK (fun b j c' => x (ix3 b j c')) p c)
    (X : (⟨3, ![n, 441, 64]⟩ : Shape).Idx → EReal) (x0 : FVec Ideal S8x441x64 .f32) (r : ℕ)
    (hx : ∀ (b : Fin 8) (j : Fin 441) (c' : Fin 64), ∃ h : 8 * r + b.val < n, x0 (ix3 b j c') = X (ix3 (⟨8 * r + b.val, h⟩ : Fin n) j c'))
    (y : S8x64.Idx) (k : (⟨2, ![n, 64]⟩ : Shape).Idx) (hk0 : (k 0).val = 8 * r + (y 0).val) (hk1 : (k 1).val = (y 1).val) :
    pay x0 y = barTab X k := by
  obtain ⟨p, q, rfl⟩ : ∃ (p : Fin 8) (q : Fin 64), y = ix2 p q := ⟨y 0, y 1, eq_ix2 y⟩
  obtain ⟨hlt, -⟩ := hx p ⟨0, by decide⟩ ⟨0, by decide⟩
  have hk : k = ix2 (⟨8 * r + p.val, hlt⟩ : Fin n) q :=
    funext fun a => Fin.ext (by match a with | ⟨0, _⟩ => exact hk0 | ⟨1, _⟩ => exact hk1)
  rw [hk, hpay]
  show Cert.Spec.barK _ p q = Cert.Spec.barK _ (⟨8 * r + p.val, hlt⟩ : Fin n) q
  exact Cert.Spec.barK_congr _ _ _ _ (fun j c' => (hx p j c').2) q

/-! ## The first normalising launch: the padded query array, 80 entries in 10 blocks -/

theorem idx0 : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

theorem lt0 (t : Fin cfg0.N) : t.val < 10 := Nat.lt_of_lt_of_eq t.isLt (show cfg0.N = 10 from N_0)

/-- The input block at point `t` is entries `8t … 8t + 7` of the array. -/
theorem iblk0_apply (c : Dev nD) (t : Fin cfg0.N) (b : Fin 8) (j : Fin 441) (c' : Fin 64) (k : S80x441x64.Idx)
    (hk0 : (k 0).val = 8 * t.val + b.val) (hk1 : (k 1).val = j.val) (hk2 : (k 2).val = c'.val) :
    (iblk0 V c 0 t : Vec Ideal S8x441x64 .f32) (ix3 b j c') = (V c main_v2 : S80x441x64.Idx → EReal) k := by
  obtain ⟨e0, e1, e2, -, -⟩ := idx0 t
  unfold iblk0
  rw [View.read_apply]
  show V c main_v2 _ = V c main_v2 _
  congr 1
  funext a
  apply Fin.ext
  match a with
  | ⟨0, _⟩ => show win0_0.index t 0 * 8 + 1 * b.val = (k 0).val; rw [e0, hk0]; omega
  | ⟨1, _⟩ => show win0_0.index t 1 * 441 + 1 * j.val = (k 1).val; rw [e1, hk1]; omega
  | ⟨2, _⟩ => show win0_0.index t 2 * 64 + 1 * c'.val = (k 2).val; rw [e2, hk2]; omega

/-- What point `t` writes back is block `t` of the array's table. -/
theorem flushed0_eq (c : Dev nD) (t : Fin cfg0.N) :
    (dat0 V c).flushed 1 t = ((cfg0.win 1).blk t).view.read (Elt Ideal) (barTab (V c main_v2 : S80x441x64.Idx → EReal)) := by
  obtain ⟨-, -, -, e3, e4⟩ := idx0 t
  have ht := lt0 t
  show (cfg0.win 1).cut (grid0.coords t) ((dat0 V c).after 1 t) = _
  rw [after0_1]
  unfold out0_1
  rw [View.canon_unit_zero hz2]
  simp only [View.ld_unit_zero (S := S8x441x64) hz3]
  funext y
  show k0_pay1 (F := Ideal) (iblk0 V c 0 t) y = barTab (V c main_v2 : S80x441x64.Idx → EReal) (((cfg0.win 1).blk t).view.emb y)
  refine bar_blk (n := 80) (k0_pay1 (F := Ideal)) Cert.Payloads.bar0_apply (V c main_v2 : S80x441x64.Idx → EReal) (iblk0 V c 0 t) t.val
    (fun b j c' => ⟨by have := b.isLt; omega, iblk0_apply V c t b j c' _ rfl rfl rfl⟩) y _ ?_ ?_
  · show win0_1.index t 0 * 8 + 1 * (y 0).val = 8 * t.val + (y 0).val
    rw [e3]; omega
  · show win0_1.index t 1 * 64 + 1 * (y 1).val = (y 1).val
    rw [e4]; omega

theorem mem_blk0 (t : Fin cfg0.N) (i : S80x64.Idx) :
    i ∈ ((cfg0.win 1).blk t).view.set ↔ ∀ a : Fin 2, win0_1.index t a * S8x64.size a ≤ (i a).val ∧ (i a).val < win0_1.index t a * S8x64.size a + S8x64.size a := by
  show i ∈ ((View.whole main_v4).slice (win0_1.rect t)).set ↔ _
  rw [View.set_slice_whole, Rect.mem_set_unit]
  exact Iff.rfl

/-- The launch's result array ends holding the table of its input array. -/
theorem final0 (c : Dev nD) : (dat0 V c).arrAt 1 cfg0.N = barTab (V c main_v2 : S80x441x64.Idx → EReal) :=
  (dat0 V c).arrAt_eq_of_cover 1 _ (fun t _ => flushed0_eq V c t) fun i => by
    have hi0 : (i 0).val < 80 := (i 0).isLt
    have hi1 : (i 1).val < 64 := (i 1).isLt
    have hN : cfg0.N = 10 := N_0
    obtain ⟨-, -, -, e3, e4⟩ := idx0 ⟨(i 0).val / 8, by rw [hN]; omega⟩
    refine ⟨⟨(i 0).val / 8, by rw [hN]; omega⟩, flush0_1 _, ?_⟩
    rw [mem_blk0]
    intro a
    match a with
    | ⟨0, _⟩ =>
      show win0_1.index ⟨(i 0).val / 8, _⟩ 0 * 8 ≤ (i 0).val ∧ (i 0).val < win0_1.index ⟨(i 0).val / 8, _⟩ 0 * 8 + 8
      rw [e3]
      show (i 0).val / 8 * 8 ≤ (i 0).val ∧ (i 0).val < (i 0).val / 8 * 8 + 8
      omega
    | ⟨1, _⟩ =>
      show win0_1.index ⟨(i 0).val / 8, _⟩ 1 * 64 ≤ (i 1).val ∧ (i 1).val < win0_1.index ⟨(i 0).val / 8, _⟩ 1 * 64 + 64
      rw [e4]
      omega

/-! ## The second normalising launch: the padded support array, 32 entries in 4 blocks -/

theorem idx1 : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

theorem lt1 (t : Fin cfg1.N) : t.val < 4 := Nat.lt_of_lt_of_eq t.isLt (show cfg1.N = 4 from N_1)

/-- The input block at point `t` is entries `8t … 8t + 7` of the array. -/
theorem iblk1_apply (c : Dev nD) (t : Fin cfg1.N) (b : Fin 8) (j : Fin 441) (c' : Fin 64) (k : S32x441x64.Idx)
    (hk0 : (k 0).val = 8 * t.val + b.val) (hk1 : (k 1).val = j.val) (hk2 : (k 2).val = c'.val) :
    (iblk1 V c 0 t : Vec Ideal S8x441x64 .f32) (ix3 b j c') = (V c main_v3 : S32x441x64.Idx → EReal) k := by
  obtain ⟨e0, e1, e2, -, -⟩ := idx1 t
  unfold iblk1
  rw [View.read_apply]
  show V c main_v3 _ = V c main_v3 _
  congr 1
  funext a
  apply Fin.ext
  match a with
  | ⟨0, _⟩ => show win1_0.index t 0 * 8 + 1 * b.val = (k 0).val; rw [e0, hk0]; omega
  | ⟨1, _⟩ => show win1_0.index t 1 * 441 + 1 * j.val = (k 1).val; rw [e1, hk1]; omega
  | ⟨2, _⟩ => show win1_0.index t 2 * 64 + 1 * c'.val = (k 2).val; rw [e2, hk2]; omega

/-- What point `t` writes back is block `t` of the array's table. -/
theorem flushed1_eq (c : Dev nD) (t : Fin cfg1.N) :
    (dat1 V c).flushed 1 t = ((cfg1.win 1).blk t).view.read (Elt Ideal) (barTab (V c main_v3 : S32x441x64.Idx → EReal)) := by
  obtain ⟨-, -, -, e3, e4⟩ := idx1 t
  have ht := lt1 t
  show (cfg1.win 1).cut (grid1.coords t) ((dat1 V c).after 1 t) = _
  rw [after1_1]
  unfold out1_1
  rw [View.canon_unit_zero hz2]
  simp only [View.ld_unit_zero (S := S8x441x64) hz3]
  funext y
  show k1_pay1 (F := Ideal) (iblk1 V c 0 t) y = barTab (V c main_v3 : S32x441x64.Idx → EReal) (((cfg1.win 1).blk t).view.emb y)
  refine bar_blk (n := 32) (k1_pay1 (F := Ideal)) Cert.Payloads.bar1_apply (V c main_v3 : S32x441x64.Idx → EReal) (iblk1 V c 0 t) t.val
    (fun b j c' => ⟨by have := b.isLt; omega, iblk1_apply V c t b j c' _ rfl rfl rfl⟩) y _ ?_ ?_
  · show win1_1.index t 0 * 8 + 1 * (y 0).val = 8 * t.val + (y 0).val
    rw [e3]; omega
  · show win1_1.index t 1 * 64 + 1 * (y 1).val = (y 1).val
    rw [e4]; omega

theorem mem_blk1 (t : Fin cfg1.N) (i : S32x64.Idx) :
    i ∈ ((cfg1.win 1).blk t).view.set ↔ ∀ a : Fin 2, win1_1.index t a * S8x64.size a ≤ (i a).val ∧ (i a).val < win1_1.index t a * S8x64.size a + S8x64.size a := by
  show i ∈ ((View.whole main_v5).slice (win1_1.rect t)).set ↔ _
  rw [View.set_slice_whole, Rect.mem_set_unit]
  exact Iff.rfl

/-- The launch's result array ends holding the table of its input array. -/
theorem final1 (c : Dev nD) : (dat1 V c).arrAt 1 cfg1.N = barTab (V c main_v3 : S32x441x64.Idx → EReal) :=
  (dat1 V c).arrAt_eq_of_cover 1 _ (fun t _ => flushed1_eq V c t) fun i => by
    have hi0 : (i 0).val < 32 := (i 0).isLt
    have hi1 : (i 1).val < 64 := (i 1).isLt
    have hN : cfg1.N = 4 := N_1
    obtain ⟨-, -, -, e3, e4⟩ := idx1 ⟨(i 0).val / 8, by rw [hN]; omega⟩
    refine ⟨⟨(i 0).val / 8, by rw [hN]; omega⟩, flush1_1 _, ?_⟩
    rw [mem_blk1]
    intro a
    match a with
    | ⟨0, _⟩ =>
      show win1_1.index ⟨(i 0).val / 8, _⟩ 0 * 8 ≤ (i 0).val ∧ (i 0).val < win1_1.index ⟨(i 0).val / 8, _⟩ 0 * 8 + 8
      rw [e3]
      show (i 0).val / 8 * 8 ≤ (i 0).val ∧ (i 0).val < (i 0).val / 8 * 8 + 8
      omega
    | ⟨1, _⟩ =>
      show win1_1.index ⟨(i 0).val / 8, _⟩ 1 * 64 ≤ (i 1).val ∧ (i 1).val < win1_1.index ⟨(i 0).val / 8, _⟩ 1 * 64 + 64
      rw [e4]
      omega

/-! ## The product launch: one point, whole arrays -/

theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first input block is the whole first table. -/
theorem iblk2_0_apply (c : Dev nD) (t : Fin cfg2.N) (i : Fin 80) (c' : Fin 64) :
    (iblk2 V c 0 t : Vec Ideal S80x64 .f32) (ix2 i c') = (V c main_v4 : S80x64.Idx → EReal) (ix2 i c') := by
  obtain ⟨e0, e1, -, -, -, -⟩ := idx2 t
  unfold iblk2
  rw [View.read_apply]
  show V c main_v4 _ = V c main_v4 _
  congr 1
  funext a
  apply Fin.ext
  match a with
  | ⟨0, _⟩ => show win2_0.index t 0 * 80 + 1 * i.val = i.val; rw [e0]; omega
  | ⟨1, _⟩ => show win2_0.index t 1 * 64 + 1 * c'.val = c'.val; rw [e1]; omega

/-- The second input block is the whole second table. -/
theorem iblk2_1_apply (c : Dev nD) (t : Fin cfg2.N) (b : Fin 32) (c' : Fin 64) :
    (iblk2 V c 1 t : Vec Ideal S32x64 .f32) (ix2 b c') = (V c main_v5 : S32x64.Idx → EReal) (ix2 b c') := by
  obtain ⟨-, -, e0, e1, -, -⟩ := idx2 t
  unfold iblk2
  rw [View.read_apply]
  show V c main_v5 _ = V c main_v5 _
  congr 1
  funext a
  apply Fin.ext
  match a with
  | ⟨0, _⟩ => show win2_1.index t 0 * 32 + 1 * b.val = b.val; rw [e0]; omega
  | ⟨1, _⟩ => show win2_1.index t 1 * 64 + 1 * c'.val = c'.val; rw [e1]; omega

/-- Blocks that are two whole tables have, as their stored table, the tables' product table. -/
theorem mm_blk (A : S80x64.Idx → EReal) (B : S32x64.Idx → EReal) (u : FVec Ideal S80x64 .f32) (v : FVec Ideal S32x64 .f32)
    (hu : ∀ (i : Fin 80) (c : Fin 64), u (ix2 i c) = A (ix2 i c)) (hv : ∀ (b : Fin 32) (c : Fin 64), v (ix2 b c) = B (ix2 b c))
    (y : S80x32.Idx) (k : S80x32.Idx) (hk0 : (k 0).val = (y 0).val) (hk1 : (k 1).val = (y 1).val) :
    k2_pay1 (F := Ideal) u v y = prodTab A B k := by
  obtain ⟨p, q, rfl⟩ : ∃ (p : Fin 80) (q : Fin 32), y = ix2 p q := ⟨y 0, y 1, eq_ix2 y⟩
  have hk : k = ix2 p q := funext fun a => Fin.ext (by match a with | ⟨0, _⟩ => exact hk0 | ⟨1, _⟩ => exact hk1)
  rw [hk, Cert.Payloads.mm_apply]
  show _ = ∑ c : Fin 64, A (ix2 p c) * B (ix2 q c)
  exact Finset.sum_congr rfl fun c _ => by rw [hu, hv]

/-- What the one point writes back is the (one) block of the product table. -/
theorem flushed2_eq (c : Dev nD) (t : Fin cfg2.N) :
    (dat2 V c).flushed 2 t = ((cfg2.win 2).blk t).view.read (Elt Ideal) (prodTab (V c main_v4 : S80x64.Idx → EReal) (V c main_v5 : S32x64.Idx → EReal)) := by
  obtain ⟨-, -, -, -, e4, e5⟩ := idx2 t
  show (cfg2.win 2).cut (grid2.coords t) ((dat2 V c).after 2 t) = _
  rw [after2_2]
  unfold out2_2
  rw [View.canon_unit_zero hz2]
  simp only [View.ld_unit_zero (S := S80x64) hz2, View.ld_unit_zero (S := S32x64) hz2]
  funext y
  show k2_pay1 (F := Ideal) (iblk2 V c 0 t) (iblk2 V c 1 t) y
    = prodTab (V c main_v4 : S80x64.Idx → EReal) (V c main_v5 : S32x64.Idx → EReal) (((cfg2.win 2).blk t).view.emb y)
  refine mm_blk (V c main_v4 : S80x64.Idx → EReal) (V c main_v5 : S32x64.Idx → EReal) (iblk2 V c 0 t) (iblk2 V c 1 t)
    (fun i c' => iblk2_0_apply V c t i c') (fun b c' => iblk2_1_apply V c t b c') y _ ?_ ?_
  · show win2_2.index t 0 * 80 + 1 * (y 0).val = (y 0).val
    rw [e4]; omega
  · show win2_2.index t 1 * 32 + 1 * (y 1).val = (y 1).val
    rw [e5]; omega

theorem mem_blk2 (t : Fin cfg2.N) (i : S80x32.Idx) :
    i ∈ ((cfg2.win 2).blk t).view.set ↔ ∀ a : Fin 2, win2_2.index t a * S80x32.size a ≤ (i a).val ∧ (i a).val < win2_2.index t a * S80x32.size a + S80x32.size a := by
  show i ∈ ((View.whole main_v6).slice (win2_2.rect t)).set ↔ _
  rw [View.set_slice_whole, Rect.mem_set_unit]
  exact Iff.rfl

/-- The launch's result array ends holding the product table of its two input tables. -/
theorem final2 (c : Dev nD) :
    (dat2 V c).arrAt 2 cfg2.N = prodTab (V c main_v4 : S80x64.Idx → EReal) (V c main_v5 : S32x64.Idx → EReal) :=
  (dat2 V c).arrAt_eq_of_cover 2 _ (fun t _ => flushed2_eq V c t) fun i => by
    have hi0 : (i 0).val < 80 := (i 0).isLt
    have hi1 : (i 1).val < 32 := (i 1).isLt
    obtain ⟨-, -, -, -, e4, e5⟩ := idx2 t2_0
    refine ⟨t2_0, flush2_2 _, ?_⟩
    rw [mem_blk2]
    intro a
    match a with
    | ⟨0, _⟩ =>
      show win2_2.index t2_0 0 * 80 ≤ (i 0).val ∧ (i 0).val < win2_2.index t2_0 0 * 80 + 80
      rw [e4]; omega
    | ⟨1, _⟩ =>
      show win2_2.index t2_0 1 * 32 ≤ (i 1).val ∧ (i 1).val < win2_2.index t2_0 1 * 32 + 32
      rw [e5]; omega

end Cert.KernelIdeal.RegionValue

end
-- ==== Proof.HostValue.lean ====
/-
  The host side of the idealized kernel program, read as values.  Before the launches it pads each array
  with five (seven) extra entries of ones along the entry axis; an entry below the original count reads the
  argument (for the support: the argument through its two reshapes).  After the launches it cuts the
  80 × 32 product table down to its first 75 rows and 25 columns.
-/
import proofs.«148449_j12927851560966_1_alg».proof.Proof.Gen.KernelIdeal.Frame
import proofs.«148449_j12927851560966_1_alg».proof.Proof.Spec
import proofs.«148449_j12927851560966_1_alg».proof.Proof.Layout
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A padding that only appends entries at the high end of the first axis reads, below the original count,
    the operand. -/
theorem pad_low_apply {n k : ℕ} (x : (⟨3, ![n, 441, 64]⟩ : Shape).Idx → EReal) (hi : Fin 3 → ℕ)
    {u : Shape} (v : u.Idx → EReal)
    (h : (⟨3, ![n, 441, 64]⟩ : Shape).Pads ![0, 0, 0] hi ![0, 0, 0] ⟨3, ![k, 441, 64]⟩) (hu : 0 < u.numel)
    (b : Fin n) (hb : b.val < k) (j : Fin 441) (c : Fin 64) :
    pad (⟨3, ![k, 441, 64]⟩ : Shape) ![0, 0, 0] hi ![0, 0, 0] x v h hu (ix3 (⟨b.val, hb⟩ : Fin k) j c) = x (ix3 b j c) := by
  unfold pad
  have hin : ∀ a : Fin 3, (![0, 0, 0] : Fin 3 → ℕ) a ≤ ((ix3 (⟨b.val, hb⟩ : Fin k) j c) (a.cast h.1)).val
      ∧ (((ix3 (⟨b.val, hb⟩ : Fin k) j c) (a.cast h.1)).val - (![0, 0, 0] : Fin 3 → ℕ) a) % ((![0, 0, 0] : Fin 3 → ℕ) a + 1) = 0
      ∧ (((ix3 (⟨b.val, hb⟩ : Fin k) j c) (a.cast h.1)).val - (![0, 0, 0] : Fin 3 → ℕ) a) / ((![0, 0, 0] : Fin 3 → ℕ) a + 1) < (⟨3, ![n, 441, 64]⟩ : Shape).size a := by
    intro a
    match a with
    | ⟨0, _⟩ => exact ⟨Nat.zero_le _, by show (b.val - 0) % (0 + 1) = 0; omega, by show (b.val - 0) / (0 + 1) < n; have := b.isLt; simpa using this⟩
    | ⟨1, _⟩ => exact ⟨Nat.zero_le _, by show (j.val - 0) % (0 + 1) = 0; omega, by show (j.val - 0) / (0 + 1) < 441; have := j.isLt; simpa using this⟩
    | ⟨2, _⟩ => exact ⟨Nat.zero_le _, by show (c.val - 0) % (0 + 1) = 0; omega, by show (c.val - 0) / (0 + 1) < 64; have := c.isLt; simpa using this⟩
  rw [dif_pos hin]
  refine congrArg x (funext fun a => Fin.ext ?_)
  match a with
  | ⟨0, _⟩ => show (b.val - 0) / (0 + 1) = b.val; simp
  | ⟨1, _⟩ => show (j.val - 0) / (0 + 1) = j.val; simp
  | ⟨2, _⟩ => show (c.val - 0) / (0 + 1) = c.val; simp

/-- The padded query array as the first launch finds it. -/
theorem V4_v2 (c : Dev nD) :
    (V4 m ρ c main_v2 : S80x441x64.Idx → EReal)
      = pad S80x441x64 ![0, 0, 0] ![5, 0, 0] ![0, 0, 0] (m ((c : Thread nD τ).loc main_arg0) : S75x441x64.Idx → EReal)
          (constant (F := Ideal) S_ .f32 0x3F800000#32) pads_S75x441x64_S80x441x64_050_000_000 h_S_ := by
  show StableHlo.after hostOps0_3 (StableHlo.after hostOps0_2 (StableHlo.after hostOps0_1 (StableHlo.after hostOps0 (W0 m ρ c)))) (Proc.devRef .tc main_v2) = _
  after_results
  rfl

/-- The padded support array as the first launch finds it. -/
theorem V4_v3 (c : Dev nD) :
    (V4 m ρ c main_v3 : S32x441x64.Idx → EReal)
      = pad S32x441x64 ![0, 0, 0] ![7, 0, 0] ![0, 0, 0]
          (shapeCast S25x441x64 (shapeCast S5x5x441x64 (m ((c : Thread nD τ).loc main_arg1) : S1x5x5x441x64.Idx → EReal) shapeCasts_S1x5x5x441x64_S5x5x441x64) shapeCasts_S5x5x441x64_S25x441x64)
          (constant (F := Ideal) S_ .f32 0x3F800000#32) pads_S25x441x64_S32x441x64_070_000_000 h_S_ := by
  show StableHlo.after hostOps0_3 (StableHlo.after hostOps0_2 (StableHlo.after hostOps0_1 (StableHlo.after hostOps0 (W0 m ρ c)))) (Proc.devRef .tc main_v3) = _
  after_results
  rfl

/-- Below the original count the padded query array is the query argument. -/
theorem V4_v2_apply (c : Dev nD) (b : Fin 75) (j : Fin 441) (c' : Fin 64) :
    (V4 m ρ c main_v2 : S80x441x64.Idx → EReal) (ix3 (⟨b.val, by have := b.isLt; omega⟩ : Fin 80) j c')
      = Cert.Spec.qry (m ((c : Thread nD τ).loc main_arg0)) b j c' := by
  rw [V4_v2]
  exact pad_low_apply (n := 75) (k := 80) _ _ _ _ _ b _ j c'

/-- Below the original count the padded support array is the support argument through its two reshapes. -/
theorem V4_v3_apply (c : Dev nD) (s : Fin 25) (j : Fin 441) (c' : Fin 64) :
    (V4 m ρ c main_v3 : S32x441x64.Idx → EReal) (ix3 (⟨s.val, by have := s.isLt; omega⟩ : Fin 32) j c')
      = Cert.Spec.sup (m ((c : Thread nD τ).loc main_arg1)) s j c' := by
  rw [V4_v3]
  refine (pad_low_apply (n := 25) (k := 32) _ _ _ _ _ s _ j c').trans ?_
  exact Cert.Layout.reshape_sup _ _ _ s j c'

/-- The result is the product table cut to its first 75 rows and 25 columns. -/
theorem W8_v7_apply (c : Dev nD) (p : Fin 75) (q : Fin 25) :
    (W8 m ρ c (Proc.devRef .tc main_v7) : S75x25.Idx → EReal) (ix2 p q)
      = (W7 m ρ c (Proc.devRef .tc main_v6) : S80x32.Idx → EReal) (ix2 (⟨p.val, by have := p.isLt; omega⟩ : Fin 80) (⟨q.val, by have := q.isLt; omega⟩ : Fin 32)) := by
  have e : (W8 m ρ c (Proc.devRef .tc main_v7) : S75x25.Idx → EReal)
      = extractStridedSlice S75x25 ![0, 0] (W7 m ρ c (Proc.devRef .tc main_v6) : S80x32.Idx → EReal) slices_S80x32_S75x25_0_0 := by
    show StableHlo.after hostOps3 (W7 m ρ c) (Proc.devRef .tc main_v7) = _
    after_results
  rw [e]
  refine extractStridedSlice_apply _ _ _ _ _ fun a => ?_
  match a with
  | ⟨0, _⟩ => show p.val = 0 + p.val; omega
  | ⟨1, _⟩ => show q.val = 0 + q.val; omega

end Cert.KernelIdeal.HostValue

end
-- ==== Proof.KernelValue.lean ====
/-
  The idealized kernel program's result as a function of its two arguments.  Boundary by boundary: the host
  pads the arrays; the two normalising launches leave the tables of summed normalised vectors of the padded
  arrays (the second launch does not touch the first's result, nor the first the second's input); the product
  launch leaves their product table; the host cuts it to 75 × 25.  An entry (p, q) of the result therefore
  involves only entry p of the padded query array and entry q of the padded support array, both below the
  original counts, where the padded arrays are the arguments: it is the kernel form of the similarity of
  query entry p and support entry q.  The padding entries never reach the result.
-/
import proofs.«148449_j12927851560966_1_alg».proof.Proof.RegionValue
import proofs.«148449_j12927851560966_1_alg».proof.Proof.HostValue

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first launch's result, as the product launch finds it: the table of the padded query array. -/
theorem qtab (c : Dev nD) :
    (V6 m ρ c main_v4 : S80x64.Idx → EReal) = RegionValue.barTab (V4 m ρ c main_v2 : S80x441x64.Idx → EReal) :=
  (W6_of_ne m ρ c main_v4 (by decide)).trans ((W5_arr m ρ c 1).trans (RegionValue.final0 (V4 m ρ) c))

/-- The second launch finds the padded support array as the host left it. -/
theorem sup_kept (c : Dev nD) : (V5 m ρ c main_v3 : S32x441x64.Idx → EReal) = V4 m ρ c main_v3 :=
  W5_of_ne m ρ c main_v3 (by decide)

/-- The second launch's result: the table of the padded support array. -/
theorem stab (c : Dev nD) :
    (V6 m ρ c main_v5 : S32x64.Idx → EReal) = RegionValue.barTab (V4 m ρ c main_v3 : S32x441x64.Idx → EReal) := by
  rw [← sup_kept m ρ c]
  exact (W6_arr m ρ c 1).trans (RegionValue.final1 (V5 m ρ) c)

/-- The product launch's result. -/
theorem ptab (c : Dev nD) :
    (W7 m ρ c (Proc.devRef .tc main_v6) : S80x32.Idx → EReal)
      = RegionValue.prodTab (V6 m ρ c main_v4 : S80x64.Idx → EReal) (V6 m ρ c main_v5 : S32x64.Idx → EReal) :=
  (W7_arr m ρ c 2).trans (RegionValue.final2 (V6 m ρ) c)

/-- Entry (p, q) of the program's result is the kernel form of the similarity of query entry `p` and support
    entry `q`. -/
theorem result_apply (c : Dev nD) (p : Fin 75) (q : Fin 25) :
    (W8 m ρ c (Proc.devRef .tc main_v7) : S75x25.Idx → EReal) (ix2 p q)
      = Cert.Spec.simK (Cert.Spec.qry (m ((c : Thread nD τ).loc main_arg0))) (Cert.Spec.sup (m ((c : Thread nD τ).loc main_arg1))) p q := by
  rw [HostValue.W8_v7_apply, ptab, qtab, stab]
  show ∑ c' : Fin 64, RegionValue.barTab (V4 m ρ c main_v2 : S80x441x64.Idx → EReal) (ix2 (⟨p.val, _⟩ : Fin 80) c')
      * RegionValue.barTab (V4 m ρ c main_v3 : S32x441x64.Idx → EReal) (ix2 (⟨q.val, _⟩ : Fin 32) c') = _
  unfold Cert.Spec.simK
  refine Finset.sum_congr rfl fun c' _ => ?_
  exact congrArg₂ (· * ·)
    (Cert.Spec.barK_congr _ _ _ _ (fun j c'' => HostValue.V4_v2_apply m ρ c p j c'') c')
    (Cert.Spec.barK_congr _ _ _ _ (fun j c'' => HostValue.V4_v3_apply m ρ c q j c'') c')

end Cert.KernelIdeal.Result

end
-- ==== Proof.lean ====
/-
  The certificate: a query array x1 [75, 441, 64] and a support input x2 [1, 5, 5, 441, 64] (read as 25
  support entries) give the 75 × 25 table of similarities — for each pair of entries, the inner product over the
  64 channels of the two entries' summed normalised descriptors (each of the 441 positions' channel vectors
  scaled to unit length, then the positions added).

  The kernel program pads the entry axes to multiples of eight with ones, runs the normalisation as two
  launches over blocks of eight entries — each position scaled by the reciprocal square root of its squared
  length — and the table as one matrix product, and cuts the padding off.  The reference divides by the
  square root of the squared length and takes the product of the two summed tables.  On the extended reals
  `x · rsqrt s = x / √s` whenever `0 < s` (Proof/Spec.lean), and the precondition states `0 < s` for every
  position of every entry (where `s = 0` the reference divides zero by zero); finiteness of the inputs is not
  used.  The padding entries never reach the 75 × 25 result.

  The three frames are the generated ones (the reference's is its generated run with the result dropped);
  the ideal pass rewrote nothing, so the idealization is the program's own text; the value claim puts the
  kernel's result (Proof/KernelValue.lean) beside the reference's (Proof/RefValue.lean) entry by entry.
-/
import proofs.«148449_j12927851560966_1_alg».proof.Defs
import proofs.«148449_j12927851560966_1_alg».proof.Proof.Gen.Kernel
import proofs.«148449_j12927851560966_1_alg».proof.Proof.Gen.Kernel.Skeleton
import proofs.«148449_j12927851560966_1_alg».proof.Proof.Gen.Kernel.Launch
import proofs.«148449_j12927851560966_1_alg».proof.Proof.Gen.Kernel.Points
import proofs.«148449_j12927851560966_1_alg».proof.Proof.Gen.Kernel.Frame
import proofs.«148449_j12927851560966_1_alg».proof.Proof.Gen.KernelIdeal
import proofs.«148449_j12927851560966_1_alg».proof.Proof.Gen.KernelIdeal.Skeleton
import proofs.«148449_j12927851560966_1_alg».proof.Proof.Gen.KernelIdeal.Launch
import proofs.«148449_j12927851560966_1_alg».proof.Proof.Gen.KernelIdeal.Points
import proofs.«148449_j12927851560966_1_alg».proof.Proof.Gen.KernelIdeal.Frame
import proofs.«148449_j12927851560966_1_alg».proof.Proof.Gen.ReferenceIdeal
import proofs.«148449_j12927851560966_1_alg».proof.Proof.Gen.Pre_finite_inputs
import proofs.«148449_j12927851560966_1_alg».proof.Proof.Gen.ReferenceIdeal.Run
import proofs.«148449_j12927851560966_1_alg».proof.Proof.Gen.ReferenceIdeal.Read
import proofs.«148449_j12927851560966_1_alg».proof.Proof.Spec
import proofs.«148449_j12927851560966_1_alg».proof.Proof.PreRead
import proofs.«148449_j12927851560966_1_alg».proof.Proof.RefValue
import proofs.«148449_j12927851560966_1_alg».proof.Proof.KernelRun
import proofs.«148449_j12927851560966_1_alg».proof.Proof.KernelValue
import Idealize.ShloMosaic.Adequacy
import Idealize.ShloMosaic.Init

noncomputable section

namespace Cert.Proof

open Idealize.ShloMosaic Idealize.ShloMosaic.ValueIdx Idealize.SL.Sem

/-- From memories that agree on the arguments both idealized programs run, and entry (p, q) of either result
    is the similarity of query entry `p` and support entry `q`: the kernel's in the reciprocal-square-root form,
    the reference's in the quotient form, equal because every position's squared length is positive. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W8 m ρ c (Proc.devRef .tc Cert.KernelIdeal.main_v7), Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  obtain ⟨hq, hs⟩ := Cert.PreRead.rows_pos _ _ (hpre c)
  funext i
  obtain ⟨p, q, rfl⟩ : ∃ (p : Fin 75) (q : Fin 25), i = ix2 p q := ⟨i 0, i 1, eq_ix2 i⟩
  refine (Cert.RefValue.ref_apply _ _ p q).trans ?_
  refine Eq.trans ?_ (Cert.KernelIdeal.Result.result_apply m ρ c p q).symm
  exact (Cert.Spec.simK_eq_simR _ _ hq hs p q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
